-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x1 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S1600000 : Shape := ⟨1, ![1600000]⟩
abbrev S5000x128 : Shape := ⟨2, ![5000, 128]⟩
abbrev S5000x1 : Shape := ⟨2, ![5000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 21
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S_, .f32⟩
  | .hbm, ⟨29, _⟩ => ⟨S100000x128, .f32⟩
  | .hbm, ⟨30, _⟩ => ⟨S100000x128, .i1⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The two dense stages as functions of an index, on the extended reals.
  The message of node r at feature q is the r-th row of h times the q-th column of W, scaled by node r's norm.
  The finished value of node r at feature q is the aggregated row scaled by node r's norm, plus the bias of feature q,
  kept when positive and multiplied by the slope otherwise. Whether the test is "greater than zero" or "at least zero"
  makes no difference: at zero the slope's product is zero as well.
-/
import Idealize.ShloMosaic.PureOps.Ideal.Laws
import Idealize.ShloMosaic.Lib.ValueIdx

noncomputable section

namespace Cert.Spec

open Idealize.ShloMosaic Idealize.ShloMosaic.ValueIdx

/-- The message of node r at feature q. -/
def message (h : (⟨2, ![100000, 128]⟩ : Shape).Idx → EReal) (w : (⟨2, ![128, 128]⟩ : Shape).Idx → EReal)
    (nrm : (⟨2, ![100000, 1]⟩ : Shape).Idx → EReal) (r : Fin 100000) (q : Fin 128) : EReal :=
  (∑ k : Fin 128, h (ix2 r k) * w (ix2 k q)) * nrm (ix2 r (0 : Fin 1))

/-- All messages, as an array. -/
def messages (h : (⟨2, ![100000, 128]⟩ : Shape).Idx → EReal) (w : (⟨2, ![128, 128]⟩ : Shape).Idx → EReal)
    (nrm : (⟨2, ![100000, 1]⟩ : Shape).Idx → EReal) : (⟨2, ![100000, 128]⟩ : Shape).Idx → EReal :=
  fun i => message h w nrm (i 0) (i 1)

/-- The slope on the non-positive side: the binary32 value nearest one fifth. -/
def slope : EReal := Ideal.ofBits .f32 0x3E4CCCCD#32

/-- A value kept when positive, multiplied by the slope otherwise. -/
def leaky (v : EReal) : EReal := if 0 < v then v else slope * v

/-- The finished value of node r at feature q. -/
def finishedAt (n : (⟨2, ![100000, 128]⟩ : Shape).Idx → EReal) (nrm : (⟨2, ![100000, 1]⟩ : Shape).Idx → EReal)
    (b : (⟨1, ![128]⟩ : Shape).Idx → EReal) (r : Fin 100000) (q : Fin 128) : EReal :=
  leaky (n (ix2 r q) * nrm (ix2 r (0 : Fin 1)) + b (ix1 q))

/-- All finished values, as an array. -/
def finished (n : (⟨2, ![100000, 128]⟩ : Shape).Idx → EReal) (nrm : (⟨2, ![100000, 1]⟩ : Shape).Idx → EReal)
    (b : (⟨1, ![128]⟩ : Shape).Idx → EReal) : (⟨2, ![100000, 128]⟩ : Shape).Idx → EReal :=
  fun i => finishedAt n nrm b (i 0) (i 1)

/-- The selection on "greater than zero". -/
theorem leaky_of_gt (v : EReal) :
    Scalar.select (Ideal.cmp .ogt v (Ideal.ofBits .f32 0x00000000#32)) v (slope * v) = leaky v := by
  rw [Ideal.ofBits_zero_f32]
  unfold leaky Ideal.cmp Scalar.select
  by_cases h : (0 : EReal) < v
  · simp [h]
  · simp [h]

/-- The selection on "at least zero" is the same function: at zero both branches are zero. -/
theorem leaky_of_ge (v : EReal) :
    Scalar.select (Ideal.cmp .oge v (Ideal.ofBits .f32 0x00000000#32)) v (slope * v) = leaky v := by
  rw [Ideal.ofBits_zero_f32]
  unfold leaky Ideal.cmp Scalar.select
  by_cases h : (0 : EReal) < v
  · simp [h, h.le]
  · by_cases h' : (0 : EReal) ≤ v
    · obtain rfl : v = 0 := le_antisymm (not_lt.mp h) h'
      simp
    · simp [h, h']

end Cert.Spec

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Stage0.lean ====
/-
  The first dense stage of the kernel program, read as an array. At grid point t the body multiplies rows
  5000·t … 5000·t + 4999 of h by the whole of W (the contraction over the 128 shared coordinates; narrowing the operands
  is the identity on the extended reals) and scales each row by its node's norm, and writes the block back over the same
  rows of the message array. The twenty blocks tile the array, so after the region it holds every node's message.
-/
import proofs.«110872_j30966714204803_1_alg».proof.Proof.Gen.KernelIdeal.Frame
import proofs.«110872_j30966714204803_1_alg».proof.Proof.Spec
import proofs.«110872_j30966714204803_1_alg».proof.Proof.LibPlainDot
import proofs.«110872_j30966714204803_1_alg».proof.Proof.LibColumnBroadcast
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block's value at row p, feature q: the row of the h block times the column of W, scaled by the row's norm. -/
theorem pay_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  refine congrArg₂ (· * ·) ?_ ?_
  · exact plain_matmul_zero_apply none (truncf .bf16 x0 bitsLt_bf16_f32) (truncf .bf16 x1 bitsLt_bf16_f32) (ix2 p q)
  · exact broadcastTo_a1_ab_apply x2 broadcasts_S5000x1_S5000x128 p q

/-- The printed index maps over the grid: the row-blocked windows sit at block row t, W at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the message array of the arrays the region finds. -/
theorem flushed_eq (c : Dev nD) (t : Fin cfg0.N) :
    (dat0 V c).flushed 3 t = ((cfg0.win 3).blk t).view.read (Elt Ideal)
      (Cert.Spec.messages (V c main_arg0) (V c main_arg2) (V c main_arg1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.Spec.messages (V c main_arg0) (V c main_arg2) (V c main_arg1) (((cfg0.win 3).blk t).view.emb (ix2 p q))
  refine (pay_apply (iblk0 V c 0 t) (iblk0 V c 1 t) (iblk0 V c 2 t) p q).trans ?_
  unfold Cert.Spec.messages Cert.Spec.message
  refine congrArg₂ (· * ·) (Finset.sum_congr rfl fun k _ => congrArg₂ (· * ·) ?_ ?_) ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_arg1 (((cfg0.win 2).blk t).view.emb (ix2 p (0 : Fin 1))) = V c main_arg1 _
    refine congrArg (V c main_arg1) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- An index is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Row r lies in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the message array holds every node's message. -/
theorem final (c : Dev nD) :
    (dat0 V c).arrAt 3 cfg0.N = Cert.Spec.messages (V c main_arg0) (V c main_arg2) (V c main_arg1) :=
  (dat0 V c).arrAt_eq_of_cover 3 _ (fun t _ => flushed_eq V c t) cover

end Cert.KernelIdeal.Stage0

end
-- ==== Proof.Stage1.lean ====
/-
  The second dense stage of the kernel program, read as an array. At grid point t the body takes rows
  5000·t … 5000·t + 4999 of the aggregated array, scales each row by its node's norm, adds the bias (one row, broadcast),
  keeps what is positive and multiplies the rest by the slope, and writes the block back over the same rows of the result.
  The twenty blocks tile the result, so after the region it holds every node's finished row.
-/
import proofs.«110872_j30966714204803_1_alg».proof.Proof.Gen.KernelIdeal.Frame
import proofs.«110872_j30966714204803_1_alg».proof.Proof.Spec
import proofs.«110872_j30966714204803_1_alg».proof.Proof.LibColumnBroadcast
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block's value at row p, feature q: the aggregated entry scaled by the row's norm, plus the feature's bias, through
    the leaky slope. -/
theorem pay_apply (x0 : Vec Ideal S5000x128 .f32) (x1 : Vec Ideal S5000x1 .f32) (x2 : Vec Ideal S128 .f32)
    (p : Fin 5000) (q : Fin 128) :
    k1_pay1 x0 x1 x2 (ix2 p q) = Cert.Spec.leaky (x0 (ix2 p q) * x1 (ix2 p (0 : Fin 1)) + x2 (ix1 q)) := by
  unfold k1_pay1
  have h1 : shapeCast S5000x128 x0 shapeCasts_S5000x128_S5000x128 (ix2 p q) = x0 (ix2 p q) :=
    congrFun (shapeCast_self x0 shapeCasts_S5000x128_S5000x128) (ix2 p q)
  have h2 : broadcastTo S5000x128 x1 broadcasts_S5000x1_S5000x128 (ix2 p q) = x1 (ix2 p (0 : Fin 1)) :=
    broadcastTo_a1_ab_apply x1 broadcasts_S5000x1_S5000x128 p q
  have h3 : broadcastTo S5000x128 (shapeCast S1x128 x2 shapeCasts_S128_S1x128) broadcasts_S1x128_S5000x128 (ix2 p q) = x2 (ix1 q) :=
    (broadcastTo_1b_ab_apply (shapeCast S1x128 x2 shapeCasts_S128_S1x128) broadcasts_S1x128_S5000x128 p q).trans
      (shapeCast_a_1a_apply x2 shapeCasts_S128_S1x128 (0 : Fin 1) q)
  show Scalar.select (Ideal.cmp .ogt (shapeCast S5000x128 x0 shapeCasts_S5000x128_S5000x128 (ix2 p q) * broadcastTo S5000x128 x1 broadcasts_S5000x1_S5000x128 (ix2 p q) + broadcastTo S5000x128 (shapeCast S1x128 x2 shapeCasts_S128_S1x128) broadcasts_S1x128_S5000x128 (ix2 p q)) (Ideal.ofBits .f32 0x00000000#32))
      (shapeCast S5000x128 x0 shapeCasts_S5000x128_S5000x128 (ix2 p q) * broadcastTo S5000x128 x1 broadcasts_S5000x1_S5000x128 (ix2 p q) + broadcastTo S5000x128 (shapeCast S1x128 x2 shapeCasts_S128_S1x128) broadcasts_S1x128_S5000x128 (ix2 p q))
      (Cert.Spec.slope * (shapeCast S5000x128 x0 shapeCasts_S5000x128_S5000x128 (ix2 p q) * broadcastTo S5000x128 x1 broadcasts_S5000x1_S5000x128 (ix2 p q) + broadcastTo S5000x128 (shapeCast S1x128 x2 shapeCasts_S128_S1x128) broadcasts_S1x128_S5000x128 (ix2 p q))) = _
  rw [h1, h2, h3]
  exact Cert.Spec.leaky_of_gt _

/-- The printed index maps over the grid: the row-blocked windows sit at block row t, the bias at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the finished array of the arrays the region finds. -/
theorem flushed_eq (c : Dev nD) (t : Fin cfg1.N) :
    (dat1 V c).flushed 3 t = ((cfg1.win 3).blk t).view.read (Elt Ideal)
      (Cert.Spec.finished (V c main_v10) (V c main_arg1) (V c main_arg3)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S128) hz1]
  obtain ⟨e00, e01, e10, e11, e20, e30, e31⟩ := idx_facts t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.Spec.finished (V c main_v10) (V c main_arg1) (V c main_arg3) (((cfg1.win 3).blk t).view.emb (ix2 p q))
  refine (pay_apply (iblk1 V c 0 t) (iblk1 V c 1 t) (iblk1 V c 2 t) p q).trans ?_
  unfold Cert.Spec.finished Cert.Spec.finishedAt
  refine congrArg Cert.Spec.leaky (congrArg₂ (· + ·) (congrArg₂ (· * ·) ?_ ?_) ?_)
  · show V c main_v10 (((cfg1.win 0).blk t).view.emb (ix2 p q)) = V c main_v10 _
    refine congrArg (V c main_v10) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  · show V c main_arg1 (((cfg1.win 1).blk t).view.emb (ix2 p (0 : Fin 1))) = V c main_arg1 _
    refine congrArg (V c main_arg1) (funext fun a => Fin.ext ?_)
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  · show V c main_arg3 (((cfg1.win 2).blk t).view.emb (ix1 q)) = V c main_arg3 _
    refine congrArg (V c main_arg3) (funext fun a => Fin.ext ?_)
    match a with
    | ⟨0, _⟩ => show win1_2.index t (0 : Fin 1) * 128 + 1 * q.val = win1_3.index t (1 : Fin 2) * 128 + 1 * q.val; omega

/-- An index is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v11).slice (win1_3.rect t)).set ↔ _
  rw [View.set_slice_whole, Rect.mem_set_unit]
  exact Iff.rfl

/-- Row r lies in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, e30, e31⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region the result array holds every node's finished row. -/
theorem final (c : Dev nD) :
    (dat1 V c).arrAt 3 cfg1.N = Cert.Spec.finished (V c main_v10) (V c main_arg1) (V c main_arg3) :=
  (dat1 V c).arrAt_eq_of_cover 3 _ (fun t _ => flushed_eq V c t) cover

end Cert.KernelIdeal.Stage1

end
-- ==== Proof.Between.lean ====
/-
  Between the two dense stages the kernel program runs the edge aggregation on the host: the source indices wrapped, the
  message rows gathered along the edges, the gathered rows summed into their destination rows of a zero array. Read here:
  the stretch's fold at the aggregated buffer and at the buffers the second stage reads, from any contents; and then the
  whole program's result buffer as the finished rows of the aggregated messages of the launch arguments.
-/
import proofs.«110872_j30966714204803_1_alg».proof.Proof.Gen.KernelIdeal.Frame
import proofs.«110872_j30966714204803_1_alg».proof.Proof.Stage0
import proofs.«110872_j30966714204803_1_alg».proof.Proof.Stage1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Between

open Cert.KernelIdeal Cert.KernelIdeal.Gen

variable {F : FTy → Type} [FloatOps F]

/-- Along every edge the (wrapped) source row of x is gathered, and the gathered rows are summed into their destination
    rows of a zero array. -/
def aggregated (x : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The stretch's fold at the aggregated buffer. -/
theorem v10_eq (W : Valuation τ sig (Elt F)) :
    after hostOps1 W (main_v10 : DevRef τ sig)
      = aggregated (W (main_v0 : DevRef τ sig)) (W (main_arg4 : DevRef τ sig)) (W (main_arg5 : DevRef τ sig)) := by
  unfold aggregated
  after_results_simp

/-- The stretch writes neither the norms nor the bias. -/
theorem arg1_eq (W : Valuation τ sig (Elt F)) : after hostOps1 W (main_arg1 : DevRef τ sig) = W (main_arg1 : DevRef τ sig) := by
  after_results_simp
theorem arg3_eq (W : Valuation τ sig (Elt F)) : after hostOps1 W (main_arg3 : DevRef τ sig) = W (main_arg3 : DevRef τ sig) := by
  after_results_simp

variable (m : (ℓ : Loc nD τ sig) → Buf (Elt Ideal) ℓ) (ρ : Dev nD → PrngReg)

/-- The result buffer at the last boundary: the finished rows of the aggregated messages of the launch arguments. -/
theorem result_eq (c : Dev nD) :
    W3 m ρ c (Proc.devRef .tc main_v11)
      = Cert.Spec.finished
          (aggregated (F := Ideal) (Cert.Spec.messages (m ((c : Thread nD τ).loc main_arg0)) (m ((c : Thread nD τ).loc main_arg2)) (m ((c : Thread nD τ).loc main_arg1)))
            (m ((c : Thread nD τ).loc main_arg4)) (m ((c : Thread nD τ).loc main_arg5)))
          (m ((c : Thread nD τ).loc main_arg1)) (m ((c : Thread nD τ).loc main_arg3)) := by
  have h0 : W1 m ρ c (Proc.devRef .tc main_v0)
      = Cert.Spec.messages (m ((c : Thread nD τ).loc main_arg0)) (m ((c : Thread nD τ).loc main_arg2)) (m ((c : Thread nD τ).loc main_arg1)) :=
    (W1_arr m ρ c 3).trans (Cert.KernelIdeal.Stage0.final (V0 m ρ) c)
  have h1 : W1 m ρ c (Proc.devRef .tc main_arg1) = m ((c : Thread nD τ).loc main_arg1) :=
    (W1_arr m ρ c 2).trans (((dat0 (V0 m ρ) c).arrAt_in 2 rfl _).trans (A_eq0 (V0 m ρ) c 2))
  have h3 : W1 m ρ c (Proc.devRef .tc main_arg3) = m ((c : Thread nD τ).loc main_arg3) := W1_of_ne m ρ c main_arg3 (by decide)
  have h4 : W1 m ρ c (Proc.devRef .tc main_arg4) = m ((c : Thread nD τ).loc main_arg4) := W1_of_ne m ρ c main_arg4 (by decide)
  have h5 : W1 m ρ c (Proc.devRef .tc main_arg5) = m ((c : Thread nD τ).loc main_arg5) := W1_of_ne m ρ c main_arg5 (by decide)
  have e10 : V2 m ρ c main_v10 = aggregated (F := Ideal) (Cert.Spec.messages (m ((c : Thread nD τ).loc main_arg0)) (m ((c : Thread nD τ).loc main_arg2)) (m ((c : Thread nD τ).loc main_arg1)))
      (m ((c : Thread nD τ).loc main_arg4)) (m ((c : Thread nD τ).loc main_arg5)) := by
    show after hostOps1 (W1 m ρ c) (main_v10 : DevRef τ sig) = _
    rw [v10_eq, h0, h4, h5]
  have e1 : V2 m ρ c main_arg1 = m ((c : Thread nD τ).loc main_arg1) := by
    show after hostOps1 (W1 m ρ c) (main_arg1 : DevRef τ sig) = _
    rw [arg1_eq, h1]
  have e3 : V2 m ρ c main_arg3 = m ((c : Thread nD τ).loc main_arg3) := by
    show after hostOps1 (W1 m ρ c) (main_arg3 : DevRef τ sig) = _
    rw [arg3_eq, h3]
  refine (W3_arr m ρ c 3).trans ((Cert.KernelIdeal.Stage1.final (V2 m ρ) c).trans ?_)
  rw [e10, e1, e3]

end Cert.KernelIdeal.Between

end
-- ==== Proof.RefRun.lean ====
/-
  The reference program read as a straight line. Its @main is twenty-two host operations followed by one call of the
  leaky-rectifier helper, whose six operations and nested select are listed here at the call's own buffers: the message
  array (the rows of h times W, each row scaled by its node's norm), the source indices wrapped, the gather of message
  rows along the edges, the sum of gathered rows into their destination rows, then the destination row's scale, the bias
  and the leaky slope. Every weakly fair execution ends with each buffer at the fold of these operations over the launch
  contents; the result buffer's fold is read back as one composed term of the six arguments.
-/
import proofs.«110872_j30966714204803_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The per-node messages: row r of h times W, scaled by node r's norm. -/
def messages (h : FVec F S100000x128 .f32) (w : FVec F S128x128 .f32) (nrm : FVec F S100000x1 .f32) : FVec F S100000x128 .f32 :=
  mulf (Host.dotGeneral dot_S100000x128_S128x128_S100000x128_1_0_0_1_n_n none h w)
    (broadcastInDim S100000x128 ![0, 1] bcast_S100000x1_S100000x128_0_1 nrm)

/-- A negative source index counts from the end; the wrapped indices as a column. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Along every edge the source row of x is gathered, and the gathered rows are summed into their destination rows of a
    zero array. -/
def aggregated (x : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x (wrapped src))

/-- The destination side: the row scaled by its node's norm, the bias added, and the leaky slope on what is not
    at least zero. -/
def finished (n : FVec F S100000x128 .f32) (nrm : FVec F S100000x1 .f32) (b : FVec F S128 .f32) : FVec F S100000x128 .f32 :=
  select
    (cmpf .oge
      (addf (mulf n (broadcastInDim S100000x128 ![0, 1] bcast_S100000x1_S100000x128_0_1 nrm))
        (broadcastInDim S100000x128 ![0, 1] bcast_S1x128_S100000x128_0_1 (broadcastInDim S1x128 ![1] bcast_S128_S1x128_1 b)))
      (broadcastInDim S100000x128 ![] bcast_S_S100000x128 (constant S_ .f32 0x00000000#32)))
    (addf (mulf n (broadcastInDim S100000x128 ![0, 1] bcast_S100000x1_S100000x128_0_1 nrm))
      (broadcastInDim S100000x128 ![0, 1] bcast_S1x128_S100000x128_0_1 (broadcastInDim S1x128 ![1] bcast_S128_S1x128_1 b)))
    (mulf (broadcastInDim S100000x128 ![] bcast_S_S100000x128 (id (constant S_ .f32 0x3E4CCCCD#32)))
      (addf (mulf n (broadcastInDim S100000x128 ![0, 1] bcast_S100000x1_S100000x128_0_1 nrm))
        (broadcastInDim S100000x128 ![0, 1] bcast_S1x128_S100000x128_0_1 (broadcastInDim S1x128 ![1] bcast_S128_S1x128_1 b))))

/-- @main's operations in order, the helper's listed at its call. -/
abbrev ops : List (HloOp τ sig (Elt F)) :=
  [ binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg1 main_v1 (broadcastInDim S100000x128 ![0, 1] bcast_S100000x1_S100000x128_0_1 : (⟨S100000x1, .f32⟩ : BufTy).Contents (Elt F) → (⟨S100000x128, .f32⟩ : BufTy).Contents (Elt F)),
    binary main_v0 main_v1 main_v2 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v3 (broadcastInDim S1600000 ![] bcast_S_S1600000 : (⟨S_, .i32⟩ : BufTy).Contents (Elt F) → (⟨S1600000, .i32⟩ : BufTy).Contents (Elt F)),
    binary main_arg4 main_v3 main_v4 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v5 (broadcastInDim S1600000 ![] bcast_S_S1600000 : (⟨S_, .i32⟩ : BufTy).Contents (Elt F) → (⟨S1600000, .i32⟩ : BufTy).Contents (Elt F)),
    binary main_arg4 main_v5 main_v6 (addi : (⟨S1600000, .i32⟩ : BufTy).Contents (Elt F) → (⟨S1600000, .i32⟩ : BufTy).Contents (Elt F) → (⟨S1600000, .i32⟩ : BufTy).Contents (Elt F)),
    ternary main_v4 main_v6 main_arg4 main_v7 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v7 main_v8 (broadcastInDim S1600000x1 ![0] bcast_S1600000_S1600000x1_0 : (⟨S1600000, .i32⟩ : BufTy).Contents (Elt F) → (⟨S1600000x1, .i32⟩ : BufTy).Contents (Elt F)),
    binary main_v2 main_v8 main_v9 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg5 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg1 main_v13 (broadcastInDim S100000x128 ![0, 1] bcast_S100000x1_S100000x128_0_1 : (⟨S100000x1, .f32⟩ : BufTy).Contents (Elt F) → (⟨S100000x128, .f32⟩ : BufTy).Contents (Elt F)),
    binary main_v12 main_v13 main_v14 (mulf : (⟨S100000x128, .f32⟩ : BufTy).Contents (Elt F) → (⟨S100000x128, .f32⟩ : BufTy).Contents (Elt F) → (⟨S100000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v17) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v17) main_call0.v4 mulf,
    TRef.ternary main_call0.v1 (.of main_v17) main_call0.v4 main_call0.call0.v0 select ]

set_option maxRecDepth 1024 in
/-- @main is that straight line: the helpers' definitions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The fold of the operations at the result buffer, from any contents: the destination side of the aggregated messages. -/
theorem out_eq (V : Valuation τ sig (Elt F)) :
    after ops V (main_v18 : DevRef τ sig)
      = finished (aggregated (messages (V (main_arg0 : DevRef τ sig)) (V (main_arg2 : DevRef τ sig)) (V (main_arg1 : DevRef τ sig)))
          (V (main_arg4 : DevRef τ sig)) (V (main_arg5 : DevRef τ sig))) (V (main_arg1 : DevRef τ sig)) (V (main_arg3 : DevRef τ sig)) := by
  unfold finished aggregated messages wrapped
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- From any memory with zero counters every weakly fair execution of @main terminates, the result at the destination
    side of the aggregated messages and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
        = finished (aggregated (messages (m ((c.tc : Thread nD τ).loc main_arg0)) (m ((c.tc : Thread nD τ).loc main_arg2)) (m ((c.tc : Thread nD τ).loc main_arg1)))
            (m ((c.tc : Thread nD τ).loc main_arg4)) (m ((c.tc : Thread nD τ).loc main_arg5)))
            (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.Straight

end
-- ==== Proof.RefValue.lean ====
/-
  The reference's two dense stages read at an index, on the extended reals: its message array is every node's message
  (the host's product of h and W is the sum over the 128 shared coordinates; the norm column is broadcast along the
  features), and its closing stage is every node's finished row (the bias row broadcast along the nodes; "at least zero"
  in place of "greater than zero" selects the same values).
-/
import proofs.«110872_j30966714204803_1_alg».proof.Proof.RefRun
import proofs.«110872_j30966714204803_1_alg».proof.Proof.Spec
import proofs.«110872_j30966714204803_1_alg».proof.Proof.LibPlainDot
import Idealize.ShloMosaic.Lib.Pipeline.Value

noncomputable section

open Idealize.ShloMosaic Idealize.ShloMosaic.TcCoe Idealize.SL.Sem Idealize.ShloMosaic.ValueIdx

namespace Cert.ReferenceIdeal.AtIndex

open Cert.ReferenceIdeal Cert.ReferenceIdeal.Gen Cert.ReferenceIdeal.Straight

/-- The norm column broadcast along the features reads node r's norm. -/
theorem norm_apply (nrm : FVec Ideal S100000x1 .f32) (r : Fin 100000) (q : Fin 128) :
    broadcastInDim S100000x128 ![0, 1] bcast_S100000x1_S100000x128_0_1 nrm (ix2 r q) = nrm (ix2 r (0 : Fin 1)) := by
  refine broadcastInDim_apply _ _ nrm (ix2 r q) (ix2 r (0 : Fin 1)) fun a => ?_
  match a with
  | ⟨0, _⟩ => rfl
  | ⟨1, _⟩ => rfl

/-- The bias, made a row and broadcast along the nodes, reads feature q's bias. -/
theorem bias_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) :=
  (broadcastInDim_apply _ _ (broadcastInDim S1x128 ![1] bcast_S128_S1x128_1 b) (ix2 r q) (ix2 (0 : Fin 1) q) fun a => by
      match a with
      | ⟨0, _⟩ => rfl
      | ⟨1, _⟩ => rfl).trans
    (broadcastInDim_apply _ _ b (ix2 (0 : Fin 1) q) (ix1 q) fun a => by
      match a with
      | ⟨0, _⟩ => rfl)

/-- The reference's message array is every node's message. -/
theorem messages_eq (h : FVec Ideal S100000x128 .f32) (w : FVec Ideal S128x128 .f32) (nrm : FVec Ideal S100000x1 .f32) :
    messages (F := Ideal) h w nrm = Cert.Spec.messages h w nrm := by
  funext i
  obtain ⟨r, q, rfl⟩ : ∃ (r : Fin 100000) (q : Fin 128), i = ix2 r q := ⟨i 0, i 1, eq_ix2 i⟩
  unfold messages
  show _ = (∑ k : Fin 128, h (ix2 r k) * w (ix2 k q)) * nrm (ix2 r (0 : Fin 1))
  refine congrArg₂ (· * ·) ?_ ?_
  · exact plain_dotGeneral_apply none .single h w (ix2 r q)
  · exact norm_apply nrm r q

/-- The reference's closing stage is every node's finished row. -/
theorem finished_eq (n : FVec Ideal S100000x128 .f32) (nrm : FVec Ideal S100000x1 .f32) (b : FVec Ideal S128 .f32) :
    finished (F := Ideal) n nrm b = Cert.Spec.finished n nrm b := by
  funext i
  obtain ⟨r, q, rfl⟩ : ∃ (r : Fin 100000) (q : Fin 128), i = ix2 r q := ⟨i 0, i 1, eq_ix2 i⟩
  unfold finished
  have hval : addf (mulf n (broadcastInDim S100000x128 ![0, 1] bcast_S100000x1_S100000x128_0_1 nrm)) (broadcastInDim S100000x128 ![0, 1] bcast_S1x128_S100000x128_0_1 (broadcastInDim S1x128 ![1] bcast_S128_S1x128_1 b)) (ix2 r q) = n (ix2 r q) * nrm (ix2 r (0 : Fin 1)) + b (ix1 q) :=
    congrArg₂ (· + ·) (congrArg₂ (· * ·) rfl (norm_apply nrm r q)) (bias_apply b r q)
  show Scalar.select (Ideal.cmp .oge (addf (mulf n (broadcastInDim S100000x128 ![0, 1] bcast_S100000x1_S100000x128_0_1 nrm)) (broadcastInDim S100000x128 ![0, 1] bcast_S1x128_S100000x128_0_1 (broadcastInDim S1x128 ![1] bcast_S128_S1x128_1 b)) (ix2 r q)) (Ideal.ofBits .f32 0x00000000#32))
      (addf (mulf n (broadcastInDim S100000x128 ![0, 1] bcast_S100000x1_S100000x128_0_1 nrm)) (broadcastInDim S100000x128 ![0, 1] bcast_S1x128_S100000x128_0_1 (broadcastInDim S1x128 ![1] bcast_S128_S1x128_1 b)) (ix2 r q))
      (Cert.Spec.slope * (addf (mulf n (broadcastInDim S100000x128 ![0, 1] bcast_S100000x1_S100000x128_0_1 nrm)) (broadcastInDim S100000x128 ![0, 1] bcast_S1x128_S100000x128_0_1 (broadcastInDim S1x128 ![1] bcast_S128_S1x128_1 b)) (ix2 r q))) = _
  rw [hval]
  exact Cert.Spec.leaky_of_ge _

end Cert.ReferenceIdeal.AtIndex

end
-- ==== Proof.lean ====
/-
  A graph layer: every node's message is its row of h times W scaled by the node's norm; along every edge the source
  node's message is summed into the destination node; every destination row is scaled by its node's norm, the bias is
  added, and the leaky slope (the binary32 value nearest one fifth) is applied to what is not positive.

  The kernel program computes the messages and the closing stage in two row-blocked pallas_calls (twenty blocks of
  5000 rows each) with the edge aggregation on the host between them; the reference computes everything on the host.
  On the extended reals the two agree for every input:
  * narrowing h and W before the matrix unit is the identity, and the matrix unit into a zero accumulator and the
    host's product are the same sum over the 128 shared coordinates, so both message arrays hold every node's message;
  * the index wrapping, the gather and the summing scatter are literally the same host operations in both programs,
    applied to equal message arrays and equal index arrays, so they are carried as one function and never opened;
  * the kernel selects on "greater than zero" and the reference on "at least zero"; the two selections differ only at
    zero, where the slope's product is zero as well.
  No step needs the inputs finite.

  The frames of the kernel programs are the generated ones; the reference's frame is its run as a straight line.
-/
import proofs.«110872_j30966714204803_1_alg».proof.Defs
import proofs.«110872_j30966714204803_1_alg».proof.Proof.Gen.Kernel
import proofs.«110872_j30966714204803_1_alg».proof.Proof.Gen.Kernel.Frame
import proofs.«110872_j30966714204803_1_alg».proof.Proof.Gen.KernelIdeal
import proofs.«110872_j30966714204803_1_alg».proof.Proof.Gen.KernelIdeal.Frame
import proofs.«110872_j30966714204803_1_alg».proof.Proof.Gen.ReferenceIdeal
import proofs.«110872_j30966714204803_1_alg».proof.Proof.Gen.Pre_finite_inputs
import proofs.«110872_j30966714204803_1_alg».proof.Proof.KIRun
import proofs.«110872_j30966714204803_1_alg».proof.Proof.Between
import proofs.«110872_j30966714204803_1_alg».proof.Proof.RefRun
import proofs.«110872_j30966714204803_1_alg».proof.Proof.RefValue

noncomputable section

namespace Cert.Proof

open Idealize.ShloMosaic Idealize.SL.Sem

/-- The aggregation written over the reference's records is the one written over the kernel program's: the same host
    operations at the same dimension numbers. -/
theorem aggregated_same (x : FVec Ideal Cert.KernelIdeal.S100000x128 .f32) (src dst : IVec Cert.KernelIdeal.S1600000 32) :
    Cert.ReferenceIdeal.Straight.aggregated (F := Ideal) x src dst = Cert.KernelIdeal.Between.aggregated (F := Ideal) x src dst := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Straight.run (F := Ideal) m ρ)

/-- Both programs end with the finished rows of the aggregated messages of the (agreeing) arguments. -/
theorem algebraic : Cert.algebraic_KernelIdeal_ReferenceIdeal := by
  intro m ρ m' ρ' _ hagree
  refine ⟨fun c => Cert.Spec.finished
      (Cert.KernelIdeal.Between.aggregated (F := Ideal)
        (Cert.Spec.messages (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Between.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Straight.run (F := Ideal) m' ρ')
    obtain ⟨a0, a1, a2, a3, a4, a5⟩ := hagree c
    rw [a0, a1, a2, a3, a4, a5, Cert.ReferenceIdeal.AtIndex.finished_eq, Cert.ReferenceIdeal.AtIndex.messages_eq]
    exact congrArg (fun n => Cert.Spec.finished n _ _) (aggregated_same _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
